-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S512x256 : Shape := ⟨2, ![512, 256]⟩
abbrev S128x256 : Shape := ⟨2, ![128, 256]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S128x256 : S_.BroadcastsInDim S128x256 (![] : Fin 0 → Fin S128x256.rank)
  reducesTo_S128x256_S_d0_1 : S128x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S131072x256 .f32) (main_arg1 : FVec F S512x256 .f32) (main_arg2 : FVec F S128x256 .f32) (main_arg3 : FVec F S1 .f32) (main_arg4 : FVec F S1 .f32) (main_arg5 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S131072x256 : Shape := ⟨2, ![131072, 256]⟩
abbrev S512x256 : Shape := ⟨2, ![512, 256]⟩
abbrev S128x256 : Shape := ⟨2, ![128, 256]⟩
abbrev S1 : Shape := ⟨1, ![1]⟩
abbrev S_ : Shape := ⟨0, ![]⟩
abbrev S256x512 : Shape := ⟨2, ![256, 512]⟩
abbrev S128x512 : Shape := ⟨2, ![128, 512]⟩
abbrev S128 : Shape := ⟨1, ![128]⟩
abbrev S1x128 : Shape := ⟨2, ![1, 128]⟩
abbrev S512x128 : Shape := ⟨2, ![512, 128]⟩
abbrev S131072x128 : Shape := ⟨2, ![131072, 128]⟩
abbrev S4096x256 : Shape := ⟨2, ![4096, 256]⟩
abbrev S4096x128 : Shape := ⟨2, ![4096, 128]⟩
abbrev S4096x512 : Shape := ⟨2, ![4096, 512]⟩

abbrev nBuf : Space → Nat
  | .hbm => 46
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S128x256, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256x512, .f32⟩
  | .hbm, ⟨10, _⟩ => ⟨S256x512, .bf16⟩
  | .hbm, ⟨11, _⟩ => ⟨S256x512, .f32⟩
  | .hbm, ⟨12, _⟩ => ⟨S256x512, .f32⟩
  | .hbm, ⟨13, _⟩ => ⟨S256x512, .bf16⟩
  | .hbm, ⟨14, _⟩ => ⟨S256x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S_, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S128x512, .f32⟩
  | .hbm, ⟨40, _⟩ => ⟨S128x512, .f32⟩
  | .hbm, ⟨41, _⟩ => ⟨S512x128, .f32⟩
  | .hbm, ⟨42, _⟩ => ⟨S512x128, .bf16⟩
  | .hbm, ⟨43, _⟩ => ⟨S512x128, .f32⟩
  | .hbm, ⟨44, _⟩ => ⟨S512x128, .bf16⟩
  | .hbm, ⟨45, _⟩ => ⟨S131072x128, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S256x512, .bf16⟩
  | .local _ .vmem, ⟨4, _⟩ => ⟨S512x128, .bf16⟩
  | .local _ .vmem, ⟨5, _⟩ => ⟨S512x128, .bf16⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1_S_ : S1.ShapeCasts S_
  transposes_S512x256_S256x512_1_0 : S512x256.Transposes [1, 0] S256x512
  bitsLt_bf16_f32 : FTy.bits .bf16 < FTy.bits .f32
  bcast_S_S128x512 : S_.BroadcastsInDim S128x512 (![] : Fin 0 → Fin S128x512.rank)
  reducesTo_S128x512_S128_d1 : S128x512.ReducesTo [1] S128
  h_S_ : 0 < S_.numel
  bcast_S_S128 : S_.BroadcastsInDim S128 (![] : Fin 0 → Fin S128.rank)
  shapeCasts_S128_S1x128 : S128.ShapeCasts S1x128
  transposes_S128x512_S512x128_1_0 : S128x512.Transposes [1, 0] S512x128
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S128x256_S256x512_S128x512_1_0_0_1_n_n_wf : DotDims.WF S128x256 S256x512 S128x512 [1] [0] [0] [1] [] []
  dot_S4096x256_S256x512_S4096x512_1_0_0_1_n_n_wf : DotDims.WF S4096x256 S256x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S512x256 : Shape := ⟨2, ![512, 256]⟩
abbrev S128x256 : Shape := ⟨2, ![128, 256]⟩
abbrev S1 : Shape := ⟨1, ![1]⟩
abbrev S256x512 : Shape := ⟨2, ![256, 512]⟩
abbrev S131072x512 : Shape := ⟨2, ![131072, 512]⟩
abbrev S128x512 : Shape := ⟨2, ![128, 512]⟩
abbrev S_ : Shape := ⟨0, ![]⟩
abbrev S512x128 : Shape := ⟨2, ![512, 128]⟩
abbrev S131072x128 : Shape := ⟨2, ![131072, 128]⟩
abbrev S1x1 : Shape := ⟨2, ![1, 1]⟩
abbrev S131072 : Shape := ⟨1, ![131072]⟩
abbrev S131072x1 : Shape := ⟨2, ![131072, 1]⟩
abbrev S128 : Shape := ⟨1, ![128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S512x256, .f32⟩
  | .hbm, ⟨2, _⟩ => ⟨S128x256, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S256x512, .f32⟩
  | .hbm, ⟨7, _⟩ => ⟨S131072x512, .f32⟩
  | .hbm, ⟨8, _⟩ => ⟨S256x512, .f32⟩
  | .hbm, ⟨9, _⟩ => ⟨S128x512, .f32⟩
  | .hbm, ⟨10, _⟩ => ⟨S_, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S512x128, .f32⟩
  | .hbm, ⟨33, _⟩ => ⟨S131072x128, .f32⟩
  | .hbm, ⟨34, _⟩ => ⟨S1x1, .f32⟩
  | .hbm, ⟨35, _⟩ => ⟨S131072x128, .f32⟩
  | .hbm, ⟨36, _⟩ => ⟨S131072x128, .f32⟩
  | .hbm, ⟨37, _⟩ => ⟨S512x128, .f32⟩
  | .hbm, ⟨38, _⟩ => ⟨S131072x128, .f32⟩
  | .hbm, ⟨39, _⟩ => ⟨S1x1, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S512x128, .f32⟩
  | .hbm, ⟨44, _⟩ => ⟨S131072x128, .f32⟩
  | .hbm, ⟨45, _⟩ => ⟨S1x1, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072, .f32⟩
  | .hbm, ⟨51, _⟩ => ⟨S131072x1, .f32⟩
  | .hbm, ⟨52, _⟩ => ⟨S1x1, .f32⟩
  | .hbm, ⟨53, _⟩ => ⟨S131072x1, .f32⟩
  | .hbm, ⟨54, _⟩ => ⟨S131072x1, .f32⟩
  | .hbm, ⟨55, _⟩ => ⟨S131072x128, .f32⟩
  | .hbm, ⟨56, _⟩ => ⟨S131072x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S1x1, .f32⟩
  | .hbm, ⟨61, _⟩ => ⟨S1x128, .f32⟩
  | .hbm, ⟨62, _⟩ => ⟨S1x128, .f32⟩
  | .hbm, ⟨63, _⟩ => ⟨S131072x128, .f32⟩
  | .hbm, ⟨64, _⟩ => ⟨S131072x128, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  transposes_S512x256_S256x512_1_0 : S512x256.Transposes [1, 0] S256x512
  bcast_S_S131072x512 : S_.BroadcastsInDim S131072x512 (![] : Fin 0 → Fin S131072x512.rank)
  bcast_S_S128x512 : S_.BroadcastsInDim S128x512 (![] : Fin 0 → Fin S128x512.rank)
  transposes_S128x512_S512x128_1_0 : S128x512.Transposes [1, 0] S512x128
  bcast_S1_S1x1_1 : S1.BroadcastsInDim S1x1 (![1] : Fin 1 → Fin S1x1.rank)
  bcast_S1x1_S131072x128_0_1 : S1x1.BroadcastsInDim S131072x128 (![0, 1] : Fin 2 → Fin S131072x128.rank)
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S1x1_S131072x1_0_1 : S1x1.BroadcastsInDim S131072x1 (![0, 1] : Fin 2 → Fin S131072x1.rank)
  bcast_S131072x1_S131072x128_0_1 : S131072x1.BroadcastsInDim S131072x128 (![0, 1] : Fin 2 → Fin S131072x128.rank)
  reducesTo_S128x512_S128_d1 : S128x512.ReducesTo [1] S128
  bcast_S128_S1x128_1 : S128.BroadcastsInDim S1x128 (![1] : Fin 1 → Fin S1x128.rank)
  bcast_S1x1_S1x128_0_1 : S1x1.BroadcastsInDim S1x128 (![0, 1] : Fin 2 → Fin S1x128.rank)
  bcast_S1x128_S131072x128_0_1 : S1x128.BroadcastsInDim S131072x128 (![0, 1] : Fin 2 → Fin S131072x128.rank)
  dot_S131072x256_S256x512_S131072x512_1_0_0_1_n_n_wf : DotDims.WF S131072x256 S256x512 S131072x512 [1] [0] [0] [1] [] []
  dot_S128x256_S256x512_S128x512_1_0_0_1_n_n_wf : DotDims.WF S128x256 S256x512 S128x512 [1] [0] [0] [1] [] []
  dot_S131072x512_S512x128_S131072x128_1_0_0_1_n_n_wf : DotDims.WF S131072x512 S512x128 S131072x128 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf

class Facts : Prop extends Facts₀ where

variable [Facts]
-- ==== Proof.Spec.lean ====
/-
  The mathematics of the Tversky projection, over the reals, one batch row at a time.

  For a row `x : Fin 256 → ℝ`, a feature bank `f : Fin 512 → Fin 256 → ℝ` and prototypes `q : Fin 128 → Fin 256 → ℝ`:
  the activations are `A j = ∑ d, x d * f j d` and `Π p j = ∑ d, q p d * f j d`; the smooth gate is
  `σ a = (tanh (13 a) + 1) / 2`; the gated activations are `A j * σ (A j)` and `Π p j * σ (Π p j)`.
  The reference forms three products against the prototype side and subtracts a row and a column sum, each scaled
  (`refRow`).  The kernel splits the feature bank into a high and a low part (the low part is `f - f`, which
  vanishes on the reals), folds the three products into two against coefficient matrices prepared once, and folds
  the row sum into the first coefficient matrix (`kerRow`).  `kerRow_eq_refRow`: distributivity of the product
  over finite sums makes them one number.  Last, the three float literals of both programs as reals, and the sum of
  real numbers inside the extended reals.
-/
import Idealize.ShloMosaic.PureOps.Ideal
import Idealize.ShloMosaic.PureOps.Ideal.Laws
import Idealize.ShloMosaic.Lib.ValueIdx

noncomputable section

open scoped BigOperators

namespace Cert.Tversky

open Idealize.ShloMosaic

/-- The smooth indicator `(tanh (13 a) + 1) · ½`. -/
def gate (a : ℝ) : ℝ := (Real.tanh (13 * a) + 1) * (1 / 2)

section Rows

variable (f : Fin 512 → Fin 256 → ℝ) (q : Fin 128 → Fin 256 → ℝ) (al be th : ℝ)

/-- A row's activation against feature `j`. -/
def act (x : Fin 256 → ℝ) (j : Fin 512) : ℝ := ∑ d : Fin 256, x d * f j d

/-- The same activation as the kernel forms it: against the bank, plus against the bank's low part `f - f`. -/
def actSplit (x : Fin 256 → ℝ) (j : Fin 512) : ℝ :=
  (∑ d : Fin 256, x d * f j d) + ∑ d : Fin 256, x d * (f j d - f j d)

/-- Prototype `p`'s gate against feature `j`. -/
def sP (p : Fin 128) (j : Fin 512) : ℝ := gate (act f (q p) j)

/-- Prototype `p`'s gated activation against feature `j`. -/
def wP (p : Fin 128) (j : Fin 512) : ℝ := act f (q p) j * sP f q p j

/-- The first coefficient matrix: `θ · wΠ + α · σΠ`, less `α` (the folded row sum). -/
def coef1 (p : Fin 128) (j : Fin 512) : ℝ := (th * wP f q p j + al * sP f q p j) - al

/-- The second coefficient matrix: `β · wΠ`. -/
def coef2 (p : Fin 128) (j : Fin 512) : ℝ := be * wP f q p j

/-- The column bias: `β` times the sum of prototype `p`'s gated activations (summed from `0`). -/
def colBias (p : Fin 128) : ℝ := be * (0 + ∑ j : Fin 512, wP f q p j)

/-- The reference's output for row `x` at prototype `p`. -/
def refRow (x : Fin 256 → ℝ) (p : Fin 128) : ℝ :=
  th * (∑ j : Fin 512, (act f x j * gate (act f x j)) * wP f q p j)
    + al * (∑ j : Fin 512, (act f x j * gate (act f x j)) * sP f q p j)
    + be * (∑ j : Fin 512, gate (act f x j) * wP f q p j)
    - al * (0 + ∑ j : Fin 512, act f x j * gate (act f x j))
    - colBias f q be p

/-- The kernel's output for row `x` at prototype `p`. -/
def kerRow (x : Fin 256 → ℝ) (p : Fin 128) : ℝ :=
  ((∑ j : Fin 512, (actSplit f x j * gate (actSplit f x j)) * coef1 f q al th p j)
    + ∑ j : Fin 512, gate (actSplit f x j) * coef2 f q be p j)
    - colBias f q be p

/-- The low part of the bank contributes nothing. -/
theorem actSplit_eq (x : Fin 256 → ℝ) (j : Fin 512) : actSplit f x j = act f x j := by
  unfold actSplit act
  simp only [sub_self, mul_zero, Finset.sum_const_zero, add_zero]

/-- The two outputs are one number: the products distribute over the sums. -/
theorem kerRow_eq_refRow (x : Fin 256 → ℝ) (p : Fin 128) :
    kerRow f q al be th x p = refRow f q al be th x p := by
  unfold kerRow refRow
  simp only [actSplit_eq]
  have h1 : (∑ j : Fin 512, (act f x j * gate (act f x j)) * coef1 f q al th p j)
      = th * (∑ j : Fin 512, (act f x j * gate (act f x j)) * wP f q p j)
        + al * (∑ j : Fin 512, (act f x j * gate (act f x j)) * sP f q p j)
        - al * (∑ j : Fin 512, act f x j * gate (act f x j)) := by
    rw [Finset.mul_sum, Finset.mul_sum, Finset.mul_sum, ← Finset.sum_add_distrib, ← Finset.sum_sub_distrib]
    exact Finset.sum_congr rfl fun j _ => by unfold coef1; ring
  have h2 : (∑ j : Fin 512, gate (act f x j) * coef2 f q be p j)
      = be * (∑ j : Fin 512, gate (act f x j) * wP f q p j) := by
    rw [Finset.mul_sum]
    exact Finset.sum_congr rfl fun j _ => by unfold coef2; ring
  rw [h1, h2]
  ring

end Rows

/-! ## Reals inside the extended reals -/

/-- A finite sum of reals, read in the extended reals, is the real sum. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The word of `13.0` denotes the real `13`. -/
theorem ofBits_thirteen : Ideal.ofBits .f32 0x41500000#32 = ((13 : ℝ) : EReal) := by
  simp [Ideal.ofBits, Ideal.ieee, -EReal.coe_mul]; norm_num

/-- The word of `1.0` denotes the real `1`. -/
theorem ofBits_one : Ideal.ofBits .f32 0x3F800000#32 = ((1 : ℝ) : EReal) := by
  simp [Ideal.ofBits, Ideal.ieee, -EReal.coe_mul]; norm_num

/-- The word of `0.5` denotes the real `½`. -/
theorem ofBits_half : Ideal.ofBits .f32 0x3F000000#32 = ((1 / 2 : ℝ) : EReal) := by
  simp [Ideal.ofBits, Ideal.ieee, -EReal.coe_mul]; norm_num

/-- The word of `+0.0` denotes the real `0`. -/
theorem ofBits_zero : Ideal.ofBits .f32 0x00000000#32 = ((0 : ℝ) : EReal) := by
  rw [Ideal.ofBits_zero_f32, EReal.coe_zero]

/-- The gate of a real, computed in the extended reals with the programs' three literals, is the real gate. -/
theorem gate_coe (a : ℝ) :
    (Ideal.tanh (Ideal.ofBits .f32 0x41500000#32 * (a : EReal)) + Ideal.ofBits .f32 0x3F800000#32)
        * Ideal.ofBits .f32 0x3F000000#32 = ((gate a : ℝ) : EReal) := by
  rw [ofBits_thirteen, ofBits_one, ofBits_half, ← EReal.coe_mul, Ideal.tanh_coe, ← EReal.coe_add, ← EReal.coe_mul]
  rfl

end Cert.Tversky

end
-- ==== Proof.Finite.lean ====
/-
  Finite inputs are real.  The precondition says, of each of the six float arguments, that every entry's absolute
  value lies strictly below `+∞`; an extended real with that property is a real number.
-/
import proofs.«411926_j36129264894679_3_alg».proof.Pre_finite_inputs
import proofs.«411926_j36129264894679_3_alg».proof.Proof.Gen.Pre_finite_inputs
import Idealize.ShloMosaic.PureOps.Ideal
import Idealize.ShloMosaic.Lib.ReduceAll
import Idealize.ShloMosaic.Lib.ValueIdx

noncomputable section

namespace Cert.Tversky

open Idealize.ShloMosaic Cert.Pre_finite_inputs

/-- The shape of rank zero has exactly one index. -/
private theorem scalarIdx_subsingleton : Subsingleton S_.Idx := ⟨fun a b => funext fun d => d.elim0⟩

/-- The 32-bit pattern with all exponent bits set and no fraction bits denotes `+∞`. -/
private theorem ofBits_inf : Ideal.ofBits .f32 0x7F800000#32 = (⊤ : EReal) := by
  simp [Ideal.ofBits, Ideal.ieee]

/-- An extended real `a` whose absolute value `max a (-a)` lies strictly below `+∞` is a real number: both
    `⊥` and `⊤` have absolute value `⊤`. -/
private theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- One array: if the conjunction over all entries of `|x| < +∞` is the true bit, every entry of `x` is real. -/
private theorem reals_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1)
    (i : s.Idx) : ∃ r : ℝ, x i = (r : EReal) :=
  haveI : Subsingleton S_.Idx := scalarIdx_subsingleton
  real_of_abs_lt_inf (x i) (Host.reduce_andi_all _ init hr hu ValueIdx.ix0 e i)

/-- Under the precondition every entry of every argument is a real number. -/
theorem reals_of_pre [Cert.Pre_finite_inputs.Facts]
    (x0 : FVec Ideal S131072x256 .f32) (x1 : FVec Ideal S512x256 .f32) (x2 : FVec Ideal S128x256 .f32)
    (x3 x4 x5 : FVec Ideal S1 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ValueIdx.ix0
  dsimp only [Cert.Pre_finite_inputs.fn, Cert.Pre_finite_inputs.fn_part1] at h0
  -- the result is a five-fold conjunction, nested to the left, of the six per-array bits
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨reals_of_all x0 _ _ _ _ e0, reals_of_all x1 _ _ _ _ e1, reals_of_all x2 _ _ _ _ e2,
    reals_of_all x3 _ _ _ _ e3, reals_of_all x4 _ _ _ _ e4, reals_of_all x5 _ _ _ _ e5⟩

end Cert.Tversky

end
-- ==== Proof.RefValue.lean ====
/-
  The reference, read entry by entry on real inputs: at batch row `b` and prototype `p` its result is the real
  number `refRow` of the row.
-/
import proofs.«411926_j36129264894679_3_alg».proof.Proof.Gen.ReferenceIdeal.Read
import proofs.«411926_j36129264894679_3_alg».proof.Proof.Spec

noncomputable section

open scoped BigOperators

namespace Cert.Tversky.Ref

open Idealize.ShloMosaic Idealize.ShloMosaic.ValueIdx Cert.ReferenceIdeal Cert.ReferenceIdeal.Read

section Stages

variable (x0 : (⟨S131072x256, .f32⟩ : BufTy).Contents (Elt Ideal)) (x1 : (⟨S512x256, .f32⟩ : BufTy).Contents (Elt Ideal))
    (x2 : (⟨S128x256, .f32⟩ : BufTy).Contents (Elt Ideal)) (x3 x4 x5 : (⟨S1, .f32⟩ : BufTy).Contents (Elt Ideal))
    (xr : Fin 131072 → Fin 256 → ℝ) (f : Fin 512 → Fin 256 → ℝ) (q : Fin 128 → Fin 256 → ℝ) (al be th : ℝ)
    (hx : ∀ (b : Fin 131072) (d : Fin 256), x0 (ix2 b d) = ((xr b d : ℝ) : EReal))
    (hf : ∀ (j : Fin 512) (d : Fin 256), x1 (ix2 j d) = ((f j d : ℝ) : EReal))
    (hq : ∀ (p : Fin 128) (d : Fin 256), x2 (ix2 p d) = ((q p d : ℝ) : EReal))
    (hal : x3 (ix1 (0 : Fin 1)) = ((al : ℝ) : EReal)) (hbe : x4 (ix1 (0 : Fin 1)) = ((be : ℝ) : EReal))
    (hth : x5 (ix1 (0 : Fin 1)) = ((th : ℝ) : EReal))

/-! ## The batch side: activation, gate, gated activation of row `b` against feature `j` -/

include hx hf in
/-- The row's activation: the sum over the 256 coordinates of row entry times feature entry. -/
private theorem act_stage (b : Fin 131072) (j : Fin 512) :
    val_main_v1 (F := Ideal) x0 x1 (ix2 b j) = ((act f (xr b) j : ℝ) : EReal) := by
  rw [val_main_v1_apply]
  unfold act
  rw [← coe_sum]
  refine Finset.sum_congr rfl fun k _ => ?_
  rw [val_main_v0_apply]
  have e1 : lidx_main_v1 (ix2 b j) k = ix2 b k :=
    funext fun a => by match a with | ⟨0, _⟩ => rfl | ⟨1, _⟩ => rfl
  have e2 : idx_main_v0 (ridx_main_v1 (ix2 b j) k) = ix2 j k :=
    funext fun a => by match a with | ⟨0, _⟩ => rfl | ⟨1, _⟩ => rfl
  rw [e1, e2, hx, hf, ← EReal.coe_mul]

include hx hf in
/-- The row's gate: `(tanh (13 · A) + 1) · ½` of the activation. -/
private theorem gateA_stage (b : Fin 131072) (j : Fin 512) :
    val_main_v10 (F := Ideal) x0 x1 (ix2 b j) = ((gate (act f (xr b) j) : ℝ) : EReal) := by
  rw [val_main_v10_apply, val_main_v8_apply, val_main_v6_apply, val_main_v5_apply, val_main_v4_apply,
    val_main_v7_apply, val_main_v9_apply, val_main_cst_apply, val_main_cst_0_apply, val_main_cst_1_apply,
    act_stage x0 x1 xr f hx hf b j]
  simp only [Ideal.mulf_def, Ideal.addf_def, Ideal.hostUnary_tanh_def, Ideal.ofBits_def]
  exact gate_coe _

include hx hf in
/-- The row's gated activation: activation times gate. -/
private theorem wA_stage (b : Fin 131072) (j : Fin 512) :
    val_main_v11 (F := Ideal) x0 x1 (ix2 b j)
      = ((act f (xr b) j * gate (act f (xr b) j) : ℝ) : EReal) := by
  rw [val_main_v11_apply, act_stage x0 x1 xr f hx hf b j, gateA_stage x0 x1 xr f hx hf b j,
    Ideal.mulf_def, ← EReal.coe_mul]

/-! ## The prototype side: the same three for prototype `p` against feature `j` -/

include hf hq in
/-- The prototype's activation. -/
private theorem actP_stage (p : Fin 128) (j : Fin 512) :
    val_main_v3 (F := Ideal) x1 x2 (ix2 p j) = ((act f (q p) j : ℝ) : EReal) := by
  rw [val_main_v3_apply]
  unfold act
  rw [← coe_sum]
  refine Finset.sum_congr rfl fun k _ => ?_
  rw [val_main_v2_apply]
  have e1 : lidx_main_v3 (ix2 p j) k = ix2 p k :=
    funext fun a => by match a with | ⟨0, _⟩ => rfl | ⟨1, _⟩ => rfl
  have e2 : idx_main_v2 (ridx_main_v3 (ix2 p j) k) = ix2 j k :=
    funext fun a => by match a with | ⟨0, _⟩ => rfl | ⟨1, _⟩ => rfl
  rw [e1, e2, hq, hf, ← EReal.coe_mul]

include hf hq in
/-- The prototype's gate. -/
private theorem sP_stage (p : Fin 128) (j : Fin 512) :
    val_main_v18 (F := Ideal) x1 x2 (ix2 p j) = ((sP f q p j : ℝ) : EReal) := by
  rw [val_main_v18_apply, val_main_v16_apply, val_main_v14_apply, val_main_v13_apply, val_main_v12_apply,
    val_main_v15_apply, val_main_v17_apply, val_main_cst_2_apply, val_main_cst_3_apply, val_main_cst_4_apply,
    actP_stage x1 x2 f q hf hq p j]
  simp only [Ideal.mulf_def, Ideal.addf_def, Ideal.hostUnary_tanh_def, Ideal.ofBits_def]
  exact gate_coe _

include hf hq in
/-- The prototype's gated activation. -/
private theorem wP_stage (p : Fin 128) (j : Fin 512) :
    val_main_v19 (F := Ideal) x1 x2 (ix2 p j) = ((wP f q p j : ℝ) : EReal) := by
  rw [val_main_v19_apply, actP_stage x1 x2 f q hf hq p j, sP_stage x1 x2 f q hf hq p j,
    Ideal.mulf_def, ← EReal.coe_mul]
  rfl

/-! ## The three products over the 512 features, at row `b` and prototype `p` -/

include hx hf hq in
/-- Gated row against gated prototype. -/
private theorem dotWW_stage (b : Fin 131072) (p : Fin 128) :
    val_main_v21 (F := Ideal) x0 x1 x2 (ix2 b p)
      = ((∑ j : Fin 512, (act f (xr b) j * gate (act f (xr b) j)) * wP f q p j : ℝ) : EReal) := by
  rw [val_main_v21_apply, ← coe_sum]
  refine Finset.sum_congr rfl fun k _ => ?_
  rw [val_main_v20_apply]
  have e1 : lidx_main_v21 (ix2 b p) k = ix2 b k :=
    funext fun a => by match a with | ⟨0, _⟩ => rfl | ⟨1, _⟩ => rfl
  have e2 : idx_main_v20 (ridx_main_v21 (ix2 b p) k) = ix2 p k :=
    funext fun a => by match a with | ⟨0, _⟩ => rfl | ⟨1, _⟩ => rfl
  rw [e1, e2, wA_stage x0 x1 xr f hx hf b k, wP_stage x1 x2 f q hf hq p k, ← EReal.coe_mul]

include hx hf hq in
/-- Gated row against the prototype's gate. -/
private theorem dotWS_stage (b : Fin 131072) (p : Fin 128) :
    val_main_v26 (F := Ideal) x0 x1 x2 (ix2 b p)
      = ((∑ j : Fin 512, (act f (xr b) j * gate (act f (xr b) j)) * sP f q p j : ℝ) : EReal) := by
  rw [val_main_v26_apply, ← coe_sum]
  refine Finset.sum_congr rfl fun k _ => ?_
  rw [val_main_v25_apply]
  have e1 : lidx_main_v26 (ix2 b p) k = ix2 b k :=
    funext fun a => by match a with | ⟨0, _⟩ => rfl | ⟨1, _⟩ => rfl
  have e2 : idx_main_v25 (ridx_main_v26 (ix2 b p) k) = ix2 p k :=
    funext fun a => by match a with | ⟨0, _⟩ => rfl | ⟨1, _⟩ => rfl
  rw [e1, e2, wA_stage x0 x1 xr f hx hf b k, sP_stage x1 x2 f q hf hq p k, ← EReal.coe_mul]

include hx hf hq in
/-- The row's gate against gated prototype. -/
private theorem dotSW_stage (b : Fin 131072) (p : Fin 128) :
    val_main_v32 (F := Ideal) x0 x1 x2 (ix2 b p)
      = ((∑ j : Fin 512, gate (act f (xr b) j) * wP f q p j : ℝ) : EReal) := by
  rw [val_main_v32_apply, ← coe_sum]
  refine Finset.sum_congr rfl fun k _ => ?_
  rw [val_main_v31_apply]
  have e1 : lidx_main_v32 (ix2 b p) k = ix2 b k :=
    funext fun a => by match a with | ⟨0, _⟩ => rfl | ⟨1, _⟩ => rfl
  have e2 : idx_main_v31 (ridx_main_v32 (ix2 b p) k) = ix2 p k :=
    funext fun a => by match a with | ⟨0, _⟩ => rfl | ⟨1, _⟩ => rfl
  rw [e1, e2, gateA_stage x0 x1 xr f hx hf b k, wP_stage x1 x2 f q hf hq p k, ← EReal.coe_mul]

/-! ## The three scalars, spread over the result -/

include hth in
/-- `θ` at every entry. -/
private theorem theta_stage (b : Fin 131072) (p : Fin 128) :
    val_main_v23 (F := Ideal) x5 (ix2 b p) = ((th : ℝ) : EReal) := by
  rw [val_main_v23_apply, val_main_v22_apply]
  have e : idx_main_v22 (idx_main_v23 (ix2 b p)) = ix1 (0 : Fin 1) :=
    funext fun a => by match a with | ⟨0, _⟩ => rfl
  rw [e, hth]

include hal in
/-- `α` at every entry. -/
private theorem alpha_stage (b : Fin 131072) (p : Fin 128) :
    val_main_v28 (F := Ideal) x3 (ix2 b p) = ((al : ℝ) : EReal) := by
  rw [val_main_v28_apply, val_main_v27_apply]
  have e : idx_main_v27 (idx_main_v28 (ix2 b p)) = ix1 (0 : Fin 1) :=
    funext fun a => by match a with | ⟨0, _⟩ => rfl
  rw [e, hal]

include hbe in
/-- `β` at every entry. -/
private theorem beta_stage (b : Fin 131072) (p : Fin 128) :
    val_main_v34 (F := Ideal) x4 (ix2 b p) = ((be : ℝ) : EReal) := by
  rw [val_main_v34_apply, val_main_v33_apply]
  have e : idx_main_v33 (idx_main_v34 (ix2 b p)) = ix1 (0 : Fin 1) :=
    funext fun a => by match a with | ⟨0, _⟩ => rfl
  rw [e, hbe]

include hal in
/-- `α` down the one column of the row sums. -/
private theorem alphaCol_stage (b : Fin 131072) :
    val_main_v40 (F := Ideal) x3 (ix2 b (0 : Fin 1)) = ((al : ℝ) : EReal) := by
  rw [val_main_v40_apply, val_main_v39_apply]
  have e : idx_main_v39 (idx_main_v40 (ix2 b (0 : Fin 1))) = ix1 (0 : Fin 1) :=
    funext fun a => by match a with | ⟨0, _⟩ => rfl
  rw [e, hal]

include hbe in
/-- `β` along the one row of the column sums. -/
private theorem betaRow_stage (p : Fin 128) :
    val_main_v47 (F := Ideal) x4 (ix2 (0 : Fin 1) p) = ((be : ℝ) : EReal) := by
  rw [val_main_v47_apply, val_main_v46_apply]
  have e : idx_main_v46 (idx_main_v47 (ix2 (0 : Fin 1) p)) = ix1 (0 : Fin 1) :=
    funext fun a => by match a with | ⟨0, _⟩ => rfl
  rw [e, hbe]

/-! ## The row sum and the column bias -/

include hx hf in
/-- The sum of row `b`'s gated activations over the features, started from zero. -/
private theorem rowSum_stage (b : Fin 131072) :
    val_main_v37 (F := Ideal) x0 x1 (ix1 b)
      = ((0 + ∑ j : Fin 512, act f (xr b) j * gate (act f (xr b) j) : ℝ) : EReal) := by
  rw [val_main_v37_apply, val_main_cst_5_apply, Ideal.ofBits_def, ofBits_zero, EReal.coe_add, ← coe_sum]
  refine congrArg (_ + ·) (Finset.sum_congr rfl fun k _ => ?_)
  have e : idx_main_v37 (ix1 b) k = ix2 b k :=
    funext fun a => by match a with | ⟨0, _⟩ => rfl | ⟨1, _⟩ => rfl
  rw [e, wA_stage x0 x1 xr f hx hf b k]

include hx hf hal in
/-- `α` times the row sum, spread over the prototypes. -/
private theorem rowTerm_stage (b : Fin 131072) (p : Fin 128) :
    val_main_v42 (F := Ideal) x0 x1 x3 (ix2 b p)
      = ((al * (0 + ∑ j : Fin 512, act f (xr b) j * gate (act f (xr b) j)) : ℝ) : EReal) := by
  rw [val_main_v42_apply]
  have e1 : idx_main_v42 (ix2 b p) = ix2 b (0 : Fin 1) :=
    funext fun a => by match a with | ⟨0, _⟩ => rfl | ⟨1, _⟩ => rfl
  rw [e1, val_main_v41_apply, alphaCol_stage x3 al hal b, val_main_v38_apply]
  have e2 : idx_main_v38 (ix2 b (0 : Fin 1)) = ix1 b :=
    funext fun a => by match a with | ⟨0, _⟩ => rfl
  rw [e2, rowSum_stage x0 x1 xr f hx hf b, Ideal.mulf_def, ← EReal.coe_mul]

include hf hq in
/-- The sum of prototype `p`'s gated activations over the features, started from zero. -/
private theorem colSum_stage (p : Fin 128) :
    val_main_v44 (F := Ideal) x1 x2 (ix1 p) = ((0 + ∑ j : Fin 512, wP f q p j : ℝ) : EReal) := by
  rw [val_main_v44_apply, val_main_cst_6_apply, Ideal.ofBits_def, ofBits_zero, EReal.coe_add, ← coe_sum]
  refine congrArg (_ + ·) (Finset.sum_congr rfl fun k _ => ?_)
  have e : idx_main_v44 (ix1 p) k = ix2 p k :=
    funext fun a => by match a with | ⟨0, _⟩ => rfl | ⟨1, _⟩ => rfl
  rw [e, wP_stage x1 x2 f q hf hq p k]

include hf hq hbe in
/-- The column bias, spread over the batch rows. -/
private theorem colTerm_stage (b : Fin 131072) (p : Fin 128) :
    val_main_v49 (F := Ideal) x1 x2 x4 (ix2 b p) = ((colBias f q be p : ℝ) : EReal) := by
  rw [val_main_v49_apply]
  have e1 : idx_main_v49 (ix2 b p) = ix2 (0 : Fin 1) p :=
    funext fun a => by match a with | ⟨0, _⟩ => rfl | ⟨1, _⟩ => rfl
  rw [e1, val_main_v48_apply, betaRow_stage x4 be hbe p, val_main_v45_apply]
  have e2 : idx_main_v45 (ix2 (0 : Fin 1) p) = ix1 p :=
    funext fun a => by match a with | ⟨0, _⟩ => rfl
  rw [e2, colSum_stage x1 x2 f q hf hq p, Ideal.mulf_def, ← EReal.coe_mul]
  rfl

end Stages

/-- The reference's last stage at `(b, p)`, on real inputs. -/
theorem ref_value
    (x0 : (⟨S131072x256, .f32⟩ : BufTy).Contents (Elt Ideal)) (x1 : (⟨S512x256, .f32⟩ : BufTy).Contents (Elt Ideal))
    (x2 : (⟨S128x256, .f32⟩ : BufTy).Contents (Elt Ideal)) (x3 x4 x5 : (⟨S1, .f32⟩ : BufTy).Contents (Elt Ideal))
    (xr : Fin 131072 → Fin 256 → ℝ) (f : Fin 512 → Fin 256 → ℝ) (q : Fin 128 → Fin 256 → ℝ) (al be th : ℝ)
    (hx : ∀ (b : Fin 131072) (d : Fin 256), x0 (ix2 b d) = ((xr b d : ℝ) : EReal))
    (hf : ∀ (j : Fin 512) (d : Fin 256), x1 (ix2 j d) = ((f j d : ℝ) : EReal))
    (hq : ∀ (p : Fin 128) (d : Fin 256), x2 (ix2 p d) = ((q p d : ℝ) : EReal))
    (hal : x3 (ix1 (0 : Fin 1)) = ((al : ℝ) : EReal)) (hbe : x4 (ix1 (0 : Fin 1)) = ((be : ℝ) : EReal))
    (hth : x5 (ix1 (0 : Fin 1)) = ((th : ℝ) : EReal))
    (b : Fin 131072) (p : Fin 128) :
    val_main_v50 (F := Ideal) x0 x1 x2 x3 x4 x5 (ix2 b p)
      = ((Cert.Tversky.refRow f q al be th (xr b) p : ℝ) : EReal) := by
  rw [val_main_v50_apply, val_main_v43_apply, val_main_v36_apply, val_main_v30_apply, val_main_v24_apply,
    val_main_v29_apply, val_main_v35_apply,
    theta_stage x5 th hth b p, alpha_stage x3 al hal b p, beta_stage x4 be hbe b p,
    dotWW_stage x0 x1 x2 xr f q hx hf hq b p, dotWS_stage x0 x1 x2 xr f q hx hf hq b p,
    dotSW_stage x0 x1 x2 xr f q hx hf hq b p,
    rowTerm_stage x0 x1 x3 xr f al hx hf hal b p, colTerm_stage x1 x2 x4 f q be hf hq hbe b p]
  simp only [Ideal.mulf_def, Ideal.addf_def, Ideal.subf_def]
  rw [← EReal.coe_mul, ← EReal.coe_mul, ← EReal.coe_mul, ← EReal.coe_add, ← EReal.coe_add, ← EReal.coe_sub,
    ← EReal.coe_sub]
  rfl

end Cert.Tversky.Ref

end
-- ==== Proof.KerBody.lean ====
/-
  One grid point of the kernel, entry by entry, on real blocks.

  The body takes a block of 4096 rows of `x`, the transposed feature bank and its low part, the two transposed
  coefficient matrices and the column bias.  It forms each row's activation as the sum of two products (against the
  bank and against its low part), gates it, and returns, at row `r` and prototype `p`, the gated activation's product
  with the first coefficient matrix plus the gate's product with the second, less the bias.  Every matrix product here
  contracts one axis into a zero accumulator, so at an entry it is the plain sum over that axis.  With every block
  holding real numbers the entry is the real number `kerRow` of the row.
-/
import proofs.«411926_j36129264894679_3_alg».proof.Proof.Gen.KernelIdeal.Skeleton
import proofs.«411926_j36129264894679_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Tversky.KerBody

open Idealize.ShloMosaic Idealize.ShloMosaic.ValueIdx Cert.KernelIdeal Cert.KernelIdeal.Gen

/-! ## The two matrix products at an entry -/

theorem lhsA_0 (i : S4096x512.Idx) (k : dot_S4096x256_S256x512_S4096x512_1_0_0_1_n_n.contr.Idx) :
    (dot_S4096x256_S256x512_S4096x512_1_0_0_1_n_n.lhsIdx i k 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl
theorem lhsA_1 (i : S4096x512.Idx) (k : dot_S4096x256_S256x512_S4096x512_1_0_0_1_n_n.contr.Idx) :
    (dot_S4096x256_S256x512_S4096x512_1_0_0_1_n_n.lhsIdx i k 1).val = (k ⟨0, by decide⟩).val :=
  dot_S4096x256_S256x512_S4096x512_1_0_0_1_n_n.lhsIdx_val_of_single rfl i k
theorem rhsA_0 (i : S4096x512.Idx) (k : dot_S4096x256_S256x512_S4096x512_1_0_0_1_n_n.contr.Idx) :
    (dot_S4096x256_S256x512_S4096x512_1_0_0_1_n_n.rhsIdx i k 0).val = (k ⟨0, by decide⟩).val :=
  dot_S4096x256_S256x512_S4096x512_1_0_0_1_n_n.rhsIdx_val_of_single rfl i k
theorem rhsA_1 (i : S4096x512.Idx) (k : dot_S4096x256_S256x512_S4096x512_1_0_0_1_n_n.contr.Idx) :
    (dot_S4096x256_S256x512_S4096x512_1_0_0_1_n_n.rhsIdx i k 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-- Rows against the bank: entry `(r, j)` is the sum over the 256 input coordinates. -/
theorem matmulA_apply {φ₁ φ₂ : FTy} (l : FVec Ideal S4096x256 φ₁) (w : FVec Ideal S256x512 φ₂) (r : Fin 4096) (j : Fin 512) :
    matmul dot_S4096x256_S256x512_S4096x512_1_0_0_1_n_n none l w (constant S4096x512 .f32 0x00000000#32) (ix2 r j)
      = ∑ k : Fin 256, l (ix2 r k) * w (ix2 k j) := by
  simp only [matmul]
  rw [Ideal.matmul_constant_zero_apply,
    ← Equiv.sum_comp (ValueIdx.contrEquiv1 dot_S4096x256_S256x512_S4096x512_1_0_0_1_n_n 256 rfl rfl).symm]
  refine Finset.sum_congr rfl fun k _ => ?_
  have hk := ValueIdx.contrEquiv1_symm_val dot_S4096x256_S256x512_S4096x512_1_0_0_1_n_n 256 rfl rfl k
  have el : dot_S4096x256_S256x512_S4096x512_1_0_0_1_n_n.lhsIdx (ix2 r j)
      ((ValueIdx.contrEquiv1 dot_S4096x256_S256x512_S4096x512_1_0_0_1_n_n 256 rfl rfl).symm k) = ix2 r k :=
    funext fun a => Fin.ext (by
      match a with
      | ⟨0, _⟩ => exact lhsA_0 _ _
      | ⟨1, _⟩ => exact (lhsA_1 _ _).trans hk)
  have er : dot_S4096x256_S256x512_S4096x512_1_0_0_1_n_n.rhsIdx (ix2 r j)
      ((ValueIdx.contrEquiv1 dot_S4096x256_S256x512_S4096x512_1_0_0_1_n_n 256 rfl rfl).symm k) = ix2 k j :=
    funext fun a => Fin.ext (by
      match a with
      | ⟨0, _⟩ => exact (rhsA_0 _ _).trans hk
      | ⟨1, _⟩ => exact rhsA_1 _ _)
  rw [el, er]

theorem lhsO_0 (i : S4096x128.Idx) (k : dot_S4096x512_S512x128_S4096x128_1_0_0_1_n_n.contr.Idx) :
    (dot_S4096x512_S512x128_S4096x128_1_0_0_1_n_n.lhsIdx i k 0).val = (i 0).val := by
  unfold DotDims.lhsIdx
  rw [dif_neg (show ¬(0 : Fin S4096x512.rank) ∈ dot_S4096x512_S512x128_S4096x128_1_0_0_1_n_n.lhsBatch by decide),
    dif_pos (show (0 : Fin S4096x512.rank) ∈ dot_S4096x512_S512x128_S4096x128_1_0_0_1_n_n.lhsNonContracting by decide)]
  rfl
theorem lhsO_1 (i : S4096x128.Idx) (k : dot_S4096x512_S512x128_S4096x128_1_0_0_1_n_n.contr.Idx) :
    (dot_S4096x512_S512x128_S4096x128_1_0_0_1_n_n.lhsIdx i k 1).val = (k ⟨0, by decide⟩).val :=
  dot_S4096x512_S512x128_S4096x128_1_0_0_1_n_n.lhsIdx_val_of_single rfl i k
theorem rhsO_0 (i : S4096x128.Idx) (k : dot_S4096x512_S512x128_S4096x128_1_0_0_1_n_n.contr.Idx) :
    (dot_S4096x512_S512x128_S4096x128_1_0_0_1_n_n.rhsIdx i k 0).val = (k ⟨0, by decide⟩).val :=
  dot_S4096x512_S512x128_S4096x128_1_0_0_1_n_n.rhsIdx_val_of_single rfl i k
theorem rhsO_1 (i : S4096x128.Idx) (k : dot_S4096x512_S512x128_S4096x128_1_0_0_1_n_n.contr.Idx) :
    (dot_S4096x512_S512x128_S4096x128_1_0_0_1_n_n.rhsIdx i k 1).val = (i 1).val := by
  unfold DotDims.rhsIdx
  rw [dif_neg (show ¬(1 : Fin S512x128.rank) ∈ dot_S4096x512_S512x128_S4096x128_1_0_0_1_n_n.rhsBatch by decide),
    dif_pos (show (1 : Fin S512x128.rank) ∈ dot_S4096x512_S512x128_S4096x128_1_0_0_1_n_n.rhsNonContracting by decide)]
  rfl

/-- Gated rows against a coefficient matrix: entry `(r, p)` is the sum over the 512 features. -/
theorem matmulO_apply {φ₁ φ₂ : FTy} (l : FVec Ideal S4096x512 φ₁) (w : FVec Ideal S512x128 φ₂) (r : Fin 4096) (p : Fin 128) :
    matmul dot_S4096x512_S512x128_S4096x128_1_0_0_1_n_n none l w (constant S4096x128 .f32 0x00000000#32) (ix2 r p)
      = ∑ k : Fin 512, l (ix2 r k) * w (ix2 k p) := by
  simp only [matmul]
  rw [Ideal.matmul_constant_zero_apply,
    ← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx (ix2 r p)
      ((ValueIdx.contrEquiv1 dot_S4096x512_S512x128_S4096x128_1_0_0_1_n_n 512 rfl rfl).symm k) = ix2 r k :=
    funext fun a => Fin.ext (by
      match a with
      | ⟨0, _⟩ => exact lhsO_0 _ _
      | ⟨1, _⟩ => exact (lhsO_1 _ _).trans hk)
  have er : dot_S4096x512_S512x128_S4096x128_1_0_0_1_n_n.rhsIdx (ix2 r p)
      ((ValueIdx.contrEquiv1 dot_S4096x512_S512x128_S4096x128_1_0_0_1_n_n 512 rfl rfl).symm k) = ix2 k p :=
    funext fun a => Fin.ext (by
      match a with
      | ⟨0, _⟩ => exact (rhsO_0 _ _).trans hk
      | ⟨1, _⟩ => exact rhsO_1 _ _)
  rw [el, er]

/-! ## The body as three steps -/

/-- The block's activations: rows against the bank plus rows against its low part. -/
def actV (xb : FVec Ideal S4096x256 .f32) (FH FL : FVec Ideal S256x512 .bf16) : FVec Ideal S4096x512 .f32 :=
  addf (matmul dot_S4096x256_S256x512_S4096x512_1_0_0_1_n_n none (truncf .bf16 xb bitsLt_bf16_f32)
      (shapeCast S256x512 FH shapeCasts_S256x512_S256x512) (constant S4096x512 .f32 0x00000000#32))
    (matmul dot_S4096x256_S256x512_S4096x512_1_0_0_1_n_n none (truncf .bf16 xb bitsLt_bf16_f32)
      (shapeCast S256x512 FL shapeCasts_S256x512_S256x512) (constant S4096x512 .f32 0x00000000#32))

/-- The gate of every activation. -/
def gateV (A : FVec Ideal S4096x512 .f32) : FVec Ideal S4096x512 .f32 :=
  mulf (addf (tanh (mulf (broadcast S4096x512 (Scalar.ofBits .f32 0x41500000#32)) A))
      (broadcast S4096x512 (Scalar.ofBits .f32 0x3F800000#32)))
    (broadcast S4096x512 (Scalar.ofBits .f32 0x3F000000#32))

/-- The block's output from its activations. -/
def outV (A : FVec Ideal S4096x512 .f32) (M1 M2 : FVec Ideal S512x128 .bf16) (CB : FVec Ideal S1x128 .f32) :
    FVec Ideal S4096x128 .f32 :=
  subf (addf (matmul dot_S4096x512_S512x128_S4096x128_1_0_0_1_n_n none (truncf .bf16 (mulf A (gateV A)) bitsLt_bf16_f32)
        (shapeCast S512x128 M1 shapeCasts_S512x128_S512x128) (constant S4096x128 .f32 0x00000000#32))
      (matmul dot_S4096x512_S512x128_S4096x128_1_0_0_1_n_n none (truncf .bf16 (gateV A) bitsLt_bf16_f32)
        (shapeCast S512x128 M2 shapeCasts_S512x128_S512x128) (constant S4096x128 .f32 0x00000000#32)))
    (broadcastTo S4096x128 (shapeCast S1x128 CB shapeCasts_S1x128_S1x128) broadcasts_S1x128_S4096x128)

/-- The body's stored value is these three steps composed. -/
theorem pay_eq (xb : Vec Ideal S4096x256 .f32) (FH FL : Vec Ideal S256x512 .bf16) (M1 M2 : Vec Ideal S512x128 .bf16)
    (CB : Vec Ideal S1x128 .f32) :
    k0_pay1 (F := Ideal) xb FH FL M1 M2 CB = outV (actV xb FH FL) M1 M2 CB := rfl

section Reals

variable (f : Fin 512 → Fin 256 → ℝ) (q : Fin 128 → Fin 256 → ℝ) (al be th : ℝ)

/-- An activation of a real row against a real bank. -/
theorem actV_apply (xb : FVec Ideal S4096x256 .f32) (FH FL : FVec Ideal S256x512 .bf16) (xbr : Fin 4096 → Fin 256 → ℝ)
    (hx : ∀ (r : Fin 4096) (d : Fin 256), xb (ix2 r d) = ((xbr r d : ℝ) : EReal))
    (hFH : ∀ (d : Fin 256) (j : Fin 512), FH (ix2 d j) = ((f j d : ℝ) : EReal))
    (hFL : ∀ (d : Fin 256) (j : Fin 512), FL (ix2 d j) = ((f j d - f j d : ℝ) : EReal))
    (r : Fin 4096) (j : Fin 512) :
    actV xb FH FL (ix2 r j) = ((Cert.Tversky.actSplit f (xbr r) j : ℝ) : EReal) := by
  unfold actV
  rw [addf_apply, matmulA_apply, matmulA_apply, shapeCast_self, shapeCast_self]
  simp only [truncf_apply, hx, hFH, hFL, ← EReal.coe_mul, Cert.Tversky.coe_sum, ← EReal.coe_add]
  rfl

/-- The gate of a real activation. -/
theorem gateV_apply (A : FVec Ideal S4096x512 .f32) (r : Fin 4096) (j : Fin 512) (a : ℝ)
    (hA : A (ix2 r j) = ((a : ℝ) : EReal)) :
    gateV A (ix2 r j) = ((Cert.Tversky.gate a : ℝ) : EReal) := by
  show (Ideal.tanh (Ideal.ofBits .f32 0x41500000#32 * A (ix2 r j)) + Ideal.ofBits .f32 0x3F800000#32)
      * Ideal.ofBits .f32 0x3F000000#32 = _
  rw [hA, Cert.Tversky.gate_coe]

/-- The output entry from real activations, real coefficient matrices and a real bias. -/
theorem outV_apply (A : FVec Ideal S4096x512 .f32) (M1 M2 : FVec Ideal S512x128 .bf16) (CB : FVec Ideal S1x128 .f32)
    (ar : Fin 512 → ℝ) (r : Fin 4096)
    (hA : ∀ j : Fin 512, A (ix2 r j) = ((ar j : ℝ) : EReal))
    (hM1 : ∀ (j : Fin 512) (p : Fin 128), M1 (ix2 j p) = ((Cert.Tversky.coef1 f q al th p j : ℝ) : EReal))
    (hM2 : ∀ (j : Fin 512) (p : Fin 128), M2 (ix2 j p) = ((Cert.Tversky.coef2 f q be p j : ℝ) : EReal))
    (hCB : ∀ p : Fin 128, CB (ix2 (0 : Fin 1) p) = ((Cert.Tversky.colBias f q be p : ℝ) : EReal))
    (p : Fin 128) :
    outV A M1 M2 CB (ix2 r p)
      = (((∑ j : Fin 512, (ar j * Cert.Tversky.gate (ar j)) * Cert.Tversky.coef1 f q al th p j)
          + ∑ j : Fin 512, Cert.Tversky.gate (ar j) * Cert.Tversky.coef2 f q be p j)
          - Cert.Tversky.colBias f q be p : ℝ) := by
  unfold outV
  rw [subf_apply, addf_apply, matmulO_apply, matmulO_apply, shapeCast_self, shapeCast_self, shapeCast_self,
    broadcastTo_1b_ab_apply]
  have hg : ∀ j : Fin 512, gateV A (ix2 r j) = ((Cert.Tversky.gate (ar j) : ℝ) : EReal) :=
    fun j => gateV_apply A r j (ar j) (hA j)
  simp only [truncf_apply, mulf_apply, hg, hA, hM1, hM2, hCB, ← EReal.coe_mul, Cert.Tversky.coe_sum, ← EReal.coe_add,
    ← EReal.coe_sub]

/-- THE BODY AT AN ENTRY: on real blocks, row `r` and prototype `p` of the stored block is `kerRow` of the row. -/
theorem payload_value (xb : Vec Ideal S4096x256 .f32) (FH FL : Vec Ideal S256x512 .bf16) (M1 M2 : Vec Ideal S512x128 .bf16)
    (CB : Vec Ideal S1x128 .f32) (xbr : Fin 4096 → Fin 256 → ℝ)
    (hx : ∀ (r : Fin 4096) (d : Fin 256), xb (ix2 r d) = ((xbr r d : ℝ) : EReal))
    (hFH : ∀ (d : Fin 256) (j : Fin 512), FH (ix2 d j) = ((f j d : ℝ) : EReal))
    (hFL : ∀ (d : Fin 256) (j : Fin 512), FL (ix2 d j) = ((f j d - f j d : ℝ) : EReal))
    (hM1 : ∀ (j : Fin 512) (p : Fin 128), M1 (ix2 j p) = ((Cert.Tversky.coef1 f q al th p j : ℝ) : EReal))
    (hM2 : ∀ (j : Fin 512) (p : Fin 128), M2 (ix2 j p) = ((Cert.Tversky.coef2 f q be p j : ℝ) : EReal))
    (hCB : ∀ p : Fin 128, CB (ix2 (0 : Fin 1) p) = ((Cert.Tversky.colBias f q be p : ℝ) : EReal))
    (r : Fin 4096) (p : Fin 128) :
    k0_pay1 (F := Ideal) xb FH FL M1 M2 CB (ix2 r p) = ((Cert.Tversky.kerRow f q al be th (xbr r) p : ℝ) : EReal) := by
  rw [pay_eq]
  exact outV_apply f q al be th (actV xb FH FL) M1 M2 CB (fun j => Cert.Tversky.actSplit f (xbr r) j) r
    (fun j => actV_apply f xb FH FL xbr hx hFH hFL r j) hM1 hM2 hCB p

end Reals

end Cert.Tversky.KerBody

end
-- ==== Proof.KerHost.lean ====
/-
  What the kernel's launch finds in the five arrays the host prepares, on real inputs: the transposed feature bank,
  its low part, the two transposed coefficient matrices and the column bias.

  Each array is a short chain of whole-array operations on the arguments.  The chain is named stage by stage
  (`bankT`, `piS`, `sigS`, `wS`, `c1S`, `c2S`, `sumS`, …), each stage is read at an index — a transpose swaps the two
  coordinates, a spread scalar reads the scalar, the matrix product is the sum over the shared axis, the row sum is
  the zero word plus the sum over the features — and on real inputs every entry is the coercion of the matching real
  formula: the prototypes' activation, its gate, the gated activation, and the coefficients and bias built from them.
-/
import proofs.«411926_j36129264894679_3_alg».proof.Proof.Gen.KernelIdeal.Frame
import proofs.«411926_j36129264894679_3_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.Tversky.KerHost

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)
  (f : Fin 512 → Fin 256 → ℝ) (q : Fin 128 → Fin 256 → ℝ) (al be th : ℝ)

/-! ## The host's stages, as functions of the argument arrays -/

section Stages

variable (x1 : FVec Ideal S512x256 .f32) (x2 : FVec Ideal S128x256 .f32) (a0 b0 t0 : FVec Ideal S1 .f32)

/-- The feature bank transposed: entry `(d, j)` is the bank's `(j, d)`. -/
def bankT : FVec Ideal S256x512 .f32 :=
  transpose S256x512 [1, 0] x1 transposes_S512x256_S256x512_1_0

/-- The transposed bank stored in the short format. -/
def hiS : FVec Ideal S256x512 .bf16 := truncf .bf16 (bankT x1) bitsLt_bf16_f32

/-- The transposed bank less its own short-format copy, stored in the short format. -/
def loS : FVec Ideal S256x512 .bf16 :=
  truncf .bf16 (subf (bankT x1) (extf .f32 (truncf .bf16 (bankT x1) bitsLt_bf16_f32) bitsLt_bf16_f32)) bitsLt_bf16_f32

/-- The prototypes' activations: prototypes times the transposed bank. -/
def piS : FVec Ideal S128x512 .f32 :=
  Host.dotGeneral (F := Ideal) dot_S128x256_S256x512_S128x512_1_0_0_1_n_n (some .fp32) x2 (bankT x1)

/-- The prototypes' gates: `(tanh (13 · Π) + 1) · ½`, entry by entry. -/
def sigS : FVec Ideal S128x512 .f32 :=
  mulf (addf (Host.tanh (mulf (broadcastInDim S128x512 ![] bcast_S_S128x512 (constant (F := Ideal) S_ .f32 0x41500000#32)) (piS x1 x2)))
      (broadcastInDim S128x512 ![] bcast_S_S128x512 (constant (F := Ideal) S_ .f32 0x3F800000#32)))
    (broadcastInDim S128x512 ![] bcast_S_S128x512 (constant (F := Ideal) S_ .f32 0x3F000000#32))

/-- The prototypes' gated activations: `Π · σ`. -/
def wS : FVec Ideal S128x512 .f32 := mulf (piS x1 x2) (sigS x1 x2)

/-- A one-entry array read as a scalar. -/
def scal (a : FVec Ideal S1 .f32) : FVec Ideal S_ .f32 := shapeCast S_ a shapeCasts_S1_S_

/-- The first coefficient matrix before it is transposed: `(θ · w + α · σ) − α`. -/
def c1S : FVec Ideal S128x512 .f32 :=
  subf (addf (mulf (broadcastInDim S128x512 ![] bcast_S_S128x512 (scal t0)) (wS x1 x2))
      (mulf (broadcastInDim S128x512 ![] bcast_S_S128x512 (scal a0)) (sigS x1 x2)))
    (broadcastInDim S128x512 ![] bcast_S_S128x512 (scal a0))

/-- The second coefficient matrix before it is transposed: `β · w`. -/
def c2S : FVec Ideal S128x512 .f32 := mulf (broadcastInDim S128x512 ![] bcast_S_S128x512 (scal b0)) (wS x1 x2)

/-- The first coefficient matrix, transposed and stored in the short format. -/
def c1T : FVec Ideal S512x128 .bf16 :=
  truncf .bf16 (transpose S512x128 [1, 0] (c1S x1 x2 a0 t0) transposes_S128x512_S512x128_1_0) bitsLt_bf16_f32

/-- The second coefficient matrix, transposed and stored in the short format. -/
def c2T : FVec Ideal S512x128 .bf16 :=
  truncf .bf16 (transpose S512x128 [1, 0] (c2S x1 x2 b0) transposes_S128x512_S512x128_1_0) bitsLt_bf16_f32

/-- Each prototype's gated activations summed over the features, from the zero word. -/
def sumS : FVec Ideal S128 .f32 :=
  Host.reduceAdd (F := Ideal) (wS x1 x2) (constant (F := Ideal) S_ .f32 0x00000000#32) reducesTo_S128x512_S128_d1 h_S_

/-- The column bias as a row: `β` times the sums, with a leading unit axis. -/
def biasS : FVec Ideal S1x128 .f32 :=
  shapeCast S1x128 (mulf (broadcastInDim S128 ![] bcast_S_S128 (scal b0)) (sumS x1 x2)) shapeCasts_S128_S1x128

end Stages

/-! ## The stages read at an index, on real inputs -/

section Read

/-- On the product's left operand, axis `0` is the result's row. -/
theorem lhs_pi_0 (i : S128x512.Idx) (r : dot_S128x256_S256x512_S128x512_1_0_0_1_n_n.contr.Idx) :
    (dot_S128x256_S256x512_S128x512_1_0_0_1_n_n.lhsIdx i r 0).val = (i 0).val := by
  unfold DotDims.lhsIdx
  rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
  rfl
/-- On the left operand, axis `1` is the summed coordinate. -/
theorem lhs_pi_1 (i : S128x512.Idx) (r : dot_S128x256_S256x512_S128x512_1_0_0_1_n_n.contr.Idx) :
    (dot_S128x256_S256x512_S128x512_1_0_0_1_n_n.lhsIdx i r 1).val = (r ⟨0, by decide⟩).val :=
  dot_S128x256_S256x512_S128x512_1_0_0_1_n_n.lhsIdx_val_of_single rfl i r
/-- On the right operand, axis `0` is the summed coordinate. -/
theorem rhs_pi_0 (i : S128x512.Idx) (r : dot_S128x256_S256x512_S128x512_1_0_0_1_n_n.contr.Idx) :
    (dot_S128x256_S256x512_S128x512_1_0_0_1_n_n.rhsIdx i r 0).val = (r ⟨0, by decide⟩).val :=
  dot_S128x256_S256x512_S128x512_1_0_0_1_n_n.rhsIdx_val_of_single rfl i r
/-- On the right operand, axis `1` is the result's column. -/
theorem rhs_pi_1 (i : S128x512.Idx) (r : dot_S128x256_S256x512_S128x512_1_0_0_1_n_n.contr.Idx) :
    (dot_S128x256_S256x512_S128x512_1_0_0_1_n_n.rhsIdx i r 1).val = (i 1).val := by
  unfold DotDims.rhsIdx
  rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
  rfl

/-- The host's product at `(p, j)`: the sum over `k` of the left operand's `(p, k)` times the right's `(k, j)`. -/
theorem dot_apply (x2 : FVec Ideal S128x256 .f32) (y0 : FVec Ideal S256x512 .f32) (p : Fin 128) (j : Fin 512) :
    Host.dotGeneral (F := Ideal) dot_S128x256_S256x512_S128x512_1_0_0_1_n_n (some .fp32) x2 y0 (ix2 p j)
      = ∑ k : Fin 256, x2 (ix2 p k) * y0 (ix2 k j) := by
  simp only [Host.dotGeneral]
  rw [Ideal.dotGeneral_apply, ← Equiv.sum_comp (ValueIdx.contrEquiv1 dot_S128x256_S256x512_S128x512_1_0_0_1_n_n 256 rfl rfl).symm]
  refine Finset.sum_congr rfl fun k _ => ?_
  have hk := ValueIdx.contrEquiv1_symm_val dot_S128x256_S256x512_S128x512_1_0_0_1_n_n 256 rfl rfl k
  have el : dot_S128x256_S256x512_S128x512_1_0_0_1_n_n.lhsIdx (ix2 p j) ((ValueIdx.contrEquiv1 dot_S128x256_S256x512_S128x512_1_0_0_1_n_n 256 rfl rfl).symm k) = ix2 p k := funext fun a => Fin.ext (by
    match a with
    | ⟨0, _⟩ => exact lhs_pi_0 _ _
    | ⟨1, _⟩ => exact (lhs_pi_1 _ _).trans hk)
  have er : dot_S128x256_S256x512_S128x512_1_0_0_1_n_n.rhsIdx (ix2 p j) ((ValueIdx.contrEquiv1 dot_S128x256_S256x512_S128x512_1_0_0_1_n_n 256 rfl rfl).symm k) = ix2 k j := funext fun a => Fin.ext (by
    match a with
    | ⟨0, _⟩ => exact (rhs_pi_0 _ _).trans hk
    | ⟨1, _⟩ => exact rhs_pi_1 _ _)
  rw [el, er]

/-- A scalar spread over the `128 × 512` matrix reads the scalar everywhere. -/
theorem bc_apply (z : FVec Ideal S_ .f32) (i : S128x512.Idx) :
    broadcastInDim S128x512 ![] bcast_S_S128x512 z i = z ix0 :=
  broadcastInDim_apply _ bcast_S_S128x512 z i ix0 (fun a => a.elim0)

/-- A scalar spread over the `128`-vector reads the scalar everywhere. -/
theorem bcv_apply (z : FVec Ideal S_ .f32) (i : S128.Idx) :
    broadcastInDim S128 ![] bcast_S_S128 z i = z ix0 :=
  broadcastInDim_apply _ bcast_S_S128 z i ix0 (fun a => a.elim0)

/-- The one-entry array read as a scalar is its entry: both shapes have one position. -/
theorem scal_apply (a : FVec Ideal S1 .f32) (i : S_.Idx) : scal a i = a (ix1 (0 : Fin 1)) := by
  unfold scal
  refine shapeCast_apply a shapeCasts_S1_S_ i (ix1 (0 : Fin 1)) ?_
  have h1 := (S1.rowMajor (ix1 (0 : Fin 1))).isLt
  have h2 := (S_.rowMajor i).isLt
  have e1 : S1.numel = 1 := by decide
  have e2 : S_.numel = 1 := by decide
  omega

variable (x1 : FVec Ideal S512x256 .f32) (x2 : FVec Ideal S128x256 .f32) (a0 b0 t0 : FVec Ideal S1 .f32)
  (hx1 : ∀ (j : Fin 512) (d : Fin 256), x1 (ix2 j d) = ((f j d : ℝ) : EReal))
  (hx2 : ∀ (p : Fin 128) (d : Fin 256), x2 (ix2 p d) = ((q p d : ℝ) : EReal))
  (ha : a0 (ix1 (0 : Fin 1)) = ((al : ℝ) : EReal)) (hb : b0 (ix1 (0 : Fin 1)) = ((be : ℝ) : EReal))
  (ht : t0 (ix1 (0 : Fin 1)) = ((th : ℝ) : EReal))

include hx1 in
/-- The transposed bank at `(d, j)` is the bank's `(j, d)`. -/
theorem bankT_apply (d : Fin 256) (j : Fin 512) : bankT x1 (ix2 d j) = ((f j d : ℝ) : EReal) := by
  unfold bankT
  exact (transpose_apply [1, 0] x1 transposes_S512x256_S256x512_1_0 (ix2 d j) (ix2 j d) (fun b => match b with
    | ⟨0, _⟩ => rfl
    | ⟨1, _⟩ => rfl)).trans (hx1 j d)

include hx1 in
/-- A change of format keeps the value: the stored bank is the transposed bank. -/
theorem hiS_apply (d : Fin 256) (j : Fin 512) : hiS x1 (ix2 d j) = ((f j d : ℝ) : EReal) :=
  bankT_apply f x1 hx1 d j

include hx1 in
/-- The low part is an entry less itself. -/
theorem loS_apply (d : Fin 256) (j : Fin 512) : loS x1 (ix2 d j) = ((f j d - f j d : ℝ) : EReal) := by
  show bankT x1 (ix2 d j) - bankT x1 (ix2 d j) = _
  rw [bankT_apply f x1 hx1 d j, ← EReal.coe_sub]

include hx1 hx2 in
/-- The prototypes' activation at `(p, j)`: the sum over `d` of prototype `p`'s entry times feature `j`'s. -/
theorem piS_apply (p : Fin 128) (j : Fin 512) : piS x1 x2 (ix2 p j) = ((act f (q p) j : ℝ) : EReal) := by
  unfold piS
  rw [dot_apply]
  have hterm : ∀ k : Fin 256, x2 (ix2 p k) * bankT x1 (ix2 k j) = ((q p k * f j k : ℝ) : EReal) := fun k => by
    rw [hx2, bankT_apply f x1 hx1, EReal.coe_mul]
  rw [Finset.sum_congr rfl fun k _ => hterm k, coe_sum]
  rfl

include hx1 hx2 in
/-- The prototypes' gate at `(p, j)`: the three literals spread, then the gate of the activation. -/
theorem sigS_apply (p : Fin 128) (j : Fin 512) : sigS x1 x2 (ix2 p j) = ((sP f q p j : ℝ) : EReal) := by
  show (Ideal.tanh (broadcastInDim S128x512 ![] bcast_S_S128x512 (constant (F := Ideal) S_ .f32 0x41500000#32) (ix2 p j) * piS x1 x2 (ix2 p j))
        + broadcastInDim S128x512 ![] bcast_S_S128x512 (constant (F := Ideal) S_ .f32 0x3F800000#32) (ix2 p j))
      * broadcastInDim S128x512 ![] bcast_S_S128x512 (constant (F := Ideal) S_ .f32 0x3F000000#32) (ix2 p j) = _
  rw [bc_apply, bc_apply, bc_apply, piS_apply f q x1 x2 hx1 hx2]
  exact gate_coe _

include hx1 hx2 in
/-- The prototypes' gated activation at `(p, j)`: activation times gate. -/
theorem wS_apply (p : Fin 128) (j : Fin 512) : wS x1 x2 (ix2 p j) = ((wP f q p j : ℝ) : EReal) := by
  unfold wS
  rw [mulf_apply, piS_apply f q x1 x2 hx1 hx2, sigS_apply f q x1 x2 hx1 hx2, ← EReal.coe_mul]
  rfl

include hx1 hx2 ha ht in
/-- The first coefficient at `(p, j)`: `(θ · w + α · σ) − α`. -/
theorem c1S_apply (p : Fin 128) (j : Fin 512) : c1S x1 x2 a0 t0 (ix2 p j) = ((coef1 f q al th p j : ℝ) : EReal) := by
  show (broadcastInDim S128x512 ![] bcast_S_S128x512 (scal t0) (ix2 p j) * wS x1 x2 (ix2 p j)
        + broadcastInDim S128x512 ![] bcast_S_S128x512 (scal a0) (ix2 p j) * sigS x1 x2 (ix2 p j))
      - broadcastInDim S128x512 ![] bcast_S_S128x512 (scal a0) (ix2 p j) = _
  rw [bc_apply, bc_apply, scal_apply, scal_apply, ht, ha, wS_apply f q x1 x2 hx1 hx2, sigS_apply f q x1 x2 hx1 hx2,
    ← EReal.coe_mul, ← EReal.coe_mul, ← EReal.coe_add, ← EReal.coe_sub]
  rfl

include hx1 hx2 hb in
/-- The second coefficient at `(p, j)`: `β · w`. -/
theorem c2S_apply (p : Fin 128) (j : Fin 512) : c2S x1 x2 b0 (ix2 p j) = ((coef2 f q be p j : ℝ) : EReal) := by
  show broadcastInDim S128x512 ![] bcast_S_S128x512 (scal b0) (ix2 p j) * wS x1 x2 (ix2 p j) = _
  rw [bc_apply, scal_apply, hb, wS_apply f q x1 x2 hx1 hx2, ← EReal.coe_mul]
  rfl

include hx1 hx2 ha ht in
/-- The first coefficient matrix transposed: entry `(j, p)` is coefficient `(p, j)`. -/
theorem c1T_apply (j : Fin 512) (p : Fin 128) : c1T x1 x2 a0 t0 (ix2 j p) = ((coef1 f q al th p j : ℝ) : EReal) := by
  unfold c1T
  exact (transpose_apply [1, 0] (c1S x1 x2 a0 t0) transposes_S128x512_S512x128_1_0 (ix2 j p) (ix2 p j) (fun b => match b with
    | ⟨0, _⟩ => rfl
    | ⟨1, _⟩ => rfl)).trans (c1S_apply f q al th x1 x2 a0 t0 hx1 hx2 ha ht p j)

include hx1 hx2 hb in
/-- The second coefficient matrix transposed: entry `(j, p)` is coefficient `(p, j)`. -/
theorem c2T_apply (j : Fin 512) (p : Fin 128) : c2T x1 x2 b0 (ix2 j p) = ((coef2 f q be p j : ℝ) : EReal) := by
  unfold c2T
  exact (transpose_apply [1, 0] (c2S x1 x2 b0) transposes_S128x512_S512x128_1_0 (ix2 j p) (ix2 p j) (fun b => match b with
    | ⟨0, _⟩ => rfl
    | ⟨1, _⟩ => rfl)).trans (c2S_apply f q be x1 x2 b0 hx1 hx2 hb p j)

/-- The host's row sum at `p`: the zero word plus the sum over the features of row `p`. -/
theorem sumS_sum (p : Fin 128) :
    sumS x1 x2 (ix1 p) = Ideal.ofBits .f32 0x00000000#32 + ∑ k : Fin 512, wS x1 x2 (ix2 p k) := by
  unfold sumS
  generalize wS x1 x2 = y0
  simp only [Host.reduceAdd, Ideal.hostReduceAdd_def]
  rw [Ideal.hostReduceAdd_single reducesTo_S128x512_S128_d1 (by decide)]
  refine congrArg (_ + ·) (Finset.sum_congr rfl fun k _ => ?_)
  exact congrArg y0 (funext fun a => Fin.ext (by match a with | ⟨0, _⟩ => rfl | ⟨1, _⟩ => rfl))

include hx1 hx2 hb in
/-- The column bias at `(0, p)`: the row with a unit axis in front reads the vector's entry `p`, which is `β` times
    the sum from zero of prototype `p`'s gated activations. -/
theorem biasS_apply (p : Fin 128) : biasS x1 x2 b0 (ix2 (0 : Fin 1) p) = ((colBias f q be p : ℝ) : EReal) := by
  unfold biasS
  refine (shapeCast_apply _ shapeCasts_S128_S1x128 (ix2 (0 : Fin 1) p) (ix1 p) ?_).trans ?_
  · rw [Shape.rowMajor_val_two, Shape.rowMajor_val_one]
    show p.val = 0 * 128 + p.val
    rw [Nat.zero_mul, Nat.zero_add]
  rw [mulf_apply, bcv_apply, scal_apply, hb, sumS_sum, ofBits_zero,
    Finset.sum_congr rfl fun k _ => wS_apply f q x1 x2 hx1 hx2 p k, coe_sum, ← EReal.coe_add, ← EReal.coe_mul]
  rfl

end Read

/-! ## The five arrays at the launch are the stages of the argument arrays -/

section Entry

/-- The first staged operand is the stored transposed bank. -/
theorem v4_eq : (V m c main_v4 : S256x512.Idx → EReal) = hiS (m ((c : Thread nD τ).loc main_arg1)) := by
  dsimp only [Gen.V, Gen.hostOps0]; after_results_simp; rfl

/-- The second is the stored low part. -/
theorem v7_eq : (V m c main_v7 : S256x512.Idx → EReal) = loS (m ((c : Thread nD τ).loc main_arg1)) := by
  dsimp only [Gen.V, Gen.hostOps0]; after_results_simp; rfl

/-- The third is the first coefficient matrix, transposed. -/
theorem v32_eq : (V m c main_v32 : S512x128.Idx → EReal)
    = c1T (m ((c : Thread nD τ).loc main_arg1)) (m ((c : Thread nD τ).loc main_arg2)) (m ((c : Thread nD τ).loc main_arg3))
        (m ((c : Thread nD τ).loc main_arg5)) := by
  dsimp only [Gen.V, Gen.hostOps0]; after_results_simp; rfl

/-- The fourth is the second coefficient matrix, transposed. -/
theorem v34_eq : (V m c main_v34 : S512x128.Idx → EReal)
    = c2T (m ((c : Thread nD τ).loc main_arg1)) (m ((c : Thread nD τ).loc main_arg2)) (m ((c : Thread nD τ).loc main_arg4)) := by
  dsimp only [Gen.V, Gen.hostOps0]; after_results_simp; rfl

/-- The fifth is the column bias as a row. -/
theorem v21_eq : (V m c main_v21 : S1x128.Idx → EReal)
    = biasS (m ((c : Thread nD τ).loc main_arg1)) (m ((c : Thread nD τ).loc main_arg2)) (m ((c : Thread nD τ).loc main_arg4)) := by
  dsimp only [Gen.V, Gen.hostOps0]; after_results_simp; rfl

end Entry

/-- The transposed feature bank. -/
theorem featHi
    (hf : ∀ (j : Fin 512) (d : Fin 256), (m ((c : Thread nD τ).loc main_arg1) : S512x256.Idx → EReal) (ix2 j d) = ((f j d : ℝ) : EReal))
    (d : Fin 256) (j : Fin 512) :
    (V m c main_v4 : S256x512.Idx → EReal) (ix2 d j) = ((f j d : ℝ) : EReal) :=
  (congrFun (v4_eq m c) (ix2 d j)).trans (hiS_apply f _ hf d j)

/-- The bank's low part: the transposed bank less itself. -/
theorem featLo
    (hf : ∀ (j : Fin 512) (d : Fin 256), (m ((c : Thread nD τ).loc main_arg1) : S512x256.Idx → EReal) (ix2 j d) = ((f j d : ℝ) : EReal))
    (d : Fin 256) (j : Fin 512) :
    (V m c main_v7 : S256x512.Idx → EReal) (ix2 d j) = ((f j d - f j d : ℝ) : EReal) :=
  (congrFun (v7_eq m c) (ix2 d j)).trans (loS_apply f _ hf d j)

/-- The first coefficient matrix, transposed. -/
theorem coefT1
    (hf : ∀ (j : Fin 512) (d : Fin 256), (m ((c : Thread nD τ).loc main_arg1) : S512x256.Idx → EReal) (ix2 j d) = ((f j d : ℝ) : EReal))
    (hq : ∀ (p : Fin 128) (d : Fin 256), (m ((c : Thread nD τ).loc main_arg2) : S128x256.Idx → EReal) (ix2 p d) = ((q p d : ℝ) : EReal))
    (hal : (m ((c : Thread nD τ).loc main_arg3) : S1.Idx → EReal) (ix1 (0 : Fin 1)) = ((al : ℝ) : EReal))
    (hth : (m ((c : Thread nD τ).loc main_arg5) : S1.Idx → EReal) (ix1 (0 : Fin 1)) = ((th : ℝ) : EReal))
    (j : Fin 512) (p : Fin 128) :
    (V m c main_v32 : S512x128.Idx → EReal) (ix2 j p) = ((Cert.Tversky.coef1 f q al th p j : ℝ) : EReal) :=
  (congrFun (v32_eq m c) (ix2 j p)).trans (c1T_apply f q al th _ _ _ _ hf hq hal hth j p)

/-- The second coefficient matrix, transposed. -/
theorem coefT2
    (hf : ∀ (j : Fin 512) (d : Fin 256), (m ((c : Thread nD τ).loc main_arg1) : S512x256.Idx → EReal) (ix2 j d) = ((f j d : ℝ) : EReal))
    (hq : ∀ (p : Fin 128) (d : Fin 256), (m ((c : Thread nD τ).loc main_arg2) : S128x256.Idx → EReal) (ix2 p d) = ((q p d : ℝ) : EReal))
    (hbe : (m ((c : Thread nD τ).loc main_arg4) : S1.Idx → EReal) (ix1 (0 : Fin 1)) = ((be : ℝ) : EReal))
    (j : Fin 512) (p : Fin 128) :
    (V m c main_v34 : S512x128.Idx → EReal) (ix2 j p) = ((Cert.Tversky.coef2 f q be p j : ℝ) : EReal) :=
  (congrFun (v34_eq m c) (ix2 j p)).trans (c2T_apply f q be _ _ _ hf hq hbe j p)

/-- The column bias. -/
theorem bias
    (hf : ∀ (j : Fin 512) (d : Fin 256), (m ((c : Thread nD τ).loc main_arg1) : S512x256.Idx → EReal) (ix2 j d) = ((f j d : ℝ) : EReal))
    (hq : ∀ (p : Fin 128) (d : Fin 256), (m ((c : Thread nD τ).loc main_arg2) : S128x256.Idx → EReal) (ix2 p d) = ((q p d : ℝ) : EReal))
    (hbe : (m ((c : Thread nD τ).loc main_arg4) : S1.Idx → EReal) (ix1 (0 : Fin 1)) = ((be : ℝ) : EReal))
    (p : Fin 128) :
    (V m c main_v21 : S1x128.Idx → EReal) (ix2 (0 : Fin 1) p) = ((Cert.Tversky.colBias f q be p : ℝ) : EReal) :=
  (congrFun (v21_eq m c) (ix2 (0 : Fin 1) p)).trans (biasS_apply f q be _ _ _ hf hq hbe p)

end Cert.Tversky.KerHost

end
-- ==== Proof.KerArray.lean ====
/-
  From blocks to the whole array.

  The launch walks 32 grid points; point `t` reads rows `4096 t … 4096 t + 4095` of `x` and the five prepared arrays
  whole, and writes rows `4096 t …` of the output.  So what point `t` writes back is block `t` of ONE array: at row
  `b` and prototype `p` the real number `refRow` of row `b` (the body gives `kerRow`, which is the same number).  The 32
  blocks tile the 131072 rows, so the output array after the run is that array.
-/
import proofs.«411926_j36129264894679_3_alg».proof.Proof.Gen.KernelIdeal.Value
import proofs.«411926_j36129264894679_3_alg».proof.Proof.Spec
import proofs.«411926_j36129264894679_3_alg».proof.Proof.KerBody
import proofs.«411926_j36129264894679_3_alg».proof.Proof.KerHost

set_option maxRecDepth 16384

noncomputable section

open scoped BigOperators

namespace Cert.Tversky.KerArray

open Idealize.ShloMosaic Idealize.ShloMosaic.TcCoe Idealize.ShloMosaic.ValueIdx Idealize.SL.Sem
open Cert.KernelIdeal Cert.KernelIdeal.Gen
open Idealize.ShloMosaic.Pipeline (Dat)

/-- The array the kernel ends with: at row `b` and prototype `p`, the reference's real output for row `b`. -/
def outArr (xr : Fin 131072 → Fin 256 → ℝ) (f : Fin 512 → Fin 256 → ℝ) (q : Fin 128 → Fin 256 → ℝ) (al be th : ℝ) :
    S131072x128.Idx → EReal :=
  fun i => ((Cert.Tversky.refRow f q al be th (xr ⟨(i 0).val, idx2_lt0 i⟩) ⟨(i 1).val, idx2_lt1 i⟩ : ℝ) : EReal)

theorem outArr_apply (xr : Fin 131072 → Fin 256 → ℝ) (f : Fin 512 → Fin 256 → ℝ) (q : Fin 128 → Fin 256 → ℝ) (al be th : ℝ)
    (b : Fin 131072) (p : Fin 128) :
    outArr xr f q al be th (ix2 b p) = ((Cert.Tversky.refRow f q al be th (xr b) p : ℝ) : EReal) := rfl

theorem hz : (![0, 0] : Fin 2 → Nat) = fun _ => 0 := funext fun a => by fin_cases a <;> rfl

/-- The printed index maps over the 32 points: the row windows sit at block `t`, the prepared arrays at block `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Point

variable (m : (ℓ : Loc nD τ sig) → Buf (Elt Ideal) ℓ) (c : Dev nD)

/-- Row `r` of point `t`'s block of `x` is row `4096 t + r` of the array. -/
theorem xblk_apply (t : Fin cfg0.N) (r : Fin 4096) (d : Fin 256) (hb : t.val * 4096 + r.val < 131072) :
    (iblk m c 0 t : S4096x256.Idx → EReal) (ix2 r d)
      = (m ((c : Thread nD τ).loc main_arg0) : S131072x256.Idx → EReal) (ix2 (⟨t.val * 4096 + r.val, hb⟩ : Fin 131072) d) := by
  show (V m c main_arg0 : S131072x256.Idx → EReal) (((cfg0.win 0).blk t).view.emb (ix2 r d)) = _
  rw [V_main_arg0]
  refine congrArg _ (funext fun a => Fin.ext ?_)
  obtain ⟨e0, e1, -⟩ := idx_facts t
  match a with
  | ⟨0, _⟩ => show win0_0.index t (0 : Fin 2) * 4096 + 1 * r.val = t.val * 4096 + r.val; rw [e0]; omega
  | ⟨1, _⟩ => show win0_0.index t (1 : Fin 2) * 256 + 1 * d.val = d.val; rw [e1]; omega

/-- The bank's block at any point is the whole prepared array. -/
theorem fhblk_apply (t : Fin cfg0.N) (d : Fin 256) (j : Fin 512) :
    (iblk m c 1 t : S256x512.Idx → EReal) (ix2 d j) = (V m c main_v4 : S256x512.Idx → EReal) (ix2 d j) := by
  show (V m c main_v4 : S256x512.Idx → EReal) (((cfg0.win 1).blk t).view.emb (ix2 d j)) = _
  refine congrArg _ (funext fun a => Fin.ext ?_)
  obtain ⟨-, -, e0, e1, -⟩ := idx_facts t
  match a with
  | ⟨0, _⟩ => show win0_1.index t (0 : Fin 2) * 256 + 1 * d.val = d.val; rw [e0]; omega
  | ⟨1, _⟩ => show win0_1.index t (1 : Fin 2) * 512 + 1 * j.val = j.val; rw [e1]; omega

/-- The low part's block at any point is the whole prepared array. -/
theorem flblk_apply (t : Fin cfg0.N) (d : Fin 256) (j : Fin 512) :
    (iblk m c 2 t : S256x512.Idx → EReal) (ix2 d j) = (V m c main_v7 : S256x512.Idx → EReal) (ix2 d j) := by
  show (V m c main_v7 : S256x512.Idx → EReal) (((cfg0.win 2).blk t).view.emb (ix2 d j)) = _
  refine congrArg _ (funext fun a => Fin.ext ?_)
  obtain ⟨-, -, -, -, e0, e1, -⟩ := idx_facts t
  match a with
  | ⟨0, _⟩ => show win0_2.index t (0 : Fin 2) * 256 + 1 * d.val = d.val; rw [e0]; omega
  | ⟨1, _⟩ => show win0_2.index t (1 : Fin 2) * 512 + 1 * j.val = j.val; rw [e1]; omega

/-- The first coefficient matrix's block at any point is the whole prepared array. -/
theorem m1blk_apply (t : Fin cfg0.N) (j : Fin 512) (p : Fin 128) :
    (iblk m c 3 t : S512x128.Idx → EReal) (ix2 j p) = (V m c main_v32 : S512x128.Idx → EReal) (ix2 j p) := by
  show (V m c main_v32 : S512x128.Idx → EReal) (((cfg0.win 3).blk t).view.emb (ix2 j p)) = _
  refine congrArg _ (funext fun a => Fin.ext ?_)
  obtain ⟨-, -, -, -, -, -, e0, e1, -⟩ := idx_facts t
  match a with
  | ⟨0, _⟩ => show win0_3.index t (0 : Fin 2) * 512 + 1 * j.val = j.val; rw [e0]; omega
  | ⟨1, _⟩ => show win0_3.index t (1 : Fin 2) * 128 + 1 * p.val = p.val; rw [e1]; omega

/-- The second coefficient matrix's block at any point is the whole prepared array. -/
theorem m2blk_apply (t : Fin cfg0.N) (j : Fin 512) (p : Fin 128) :
    (iblk m c 4 t : S512x128.Idx → EReal) (ix2 j p) = (V m c main_v34 : S512x128.Idx → EReal) (ix2 j p) := by
  show (V m c main_v34 : S512x128.Idx → EReal) (((cfg0.win 4).blk t).view.emb (ix2 j p)) = _
  refine congrArg _ (funext fun a => Fin.ext ?_)
  obtain ⟨-, -, -, -, -, -, -, -, e0, e1, -⟩ := idx_facts t
  match a with
  | ⟨0, _⟩ => show win0_4.index t (0 : Fin 2) * 512 + 1 * j.val = j.val; rw [e0]; omega
  | ⟨1, _⟩ => show win0_4.index t (1 : Fin 2) * 128 + 1 * p.val = p.val; rw [e1]; omega

/-- The bias's block at any point is the whole prepared row. -/
theorem cbblk_apply (t : Fin cfg0.N) (p : Fin 128) :
    (iblk m c 5 t : S1x128.Idx → EReal) (ix2 (0 : Fin 1) p) = (V m c main_v21 : S1x128.Idx → EReal) (ix2 (0 : Fin 1) p) := by
  show (V m c main_v21 : S1x128.Idx → EReal) (((cfg0.win 5).blk t).view.emb (ix2 (0 : Fin 1) p)) = _
  refine congrArg _ (funext fun a => Fin.ext ?_)
  obtain ⟨-, -, -, -, -, -, -, -, -, -, e0, e1, -⟩ := idx_facts t
  match a with
  | ⟨0, _⟩ => show win0_5.index t (0 : Fin 2) * 1 + 1 * (0 : Fin 1).val = (0 : Fin 1).val; rw [e0]; rfl
  | ⟨1, _⟩ => show win0_5.index t (1 : Fin 2) * 128 + 1 * p.val = p.val; rw [e1]; omega

variable (xr : Fin 131072 → Fin 256 → ℝ) (f : Fin 512 → Fin 256 → ℝ) (q : Fin 128 → Fin 256 → ℝ) (al be th : ℝ)
  (hx : ∀ (b : Fin 131072) (d : Fin 256), (m ((c : Thread nD τ).loc main_arg0) : S131072x256.Idx → EReal) (ix2 b d) = ((xr b d : ℝ) : EReal))
  (hf : ∀ (j : Fin 512) (d : Fin 256), (m ((c : Thread nD τ).loc main_arg1) : S512x256.Idx → EReal) (ix2 j d) = ((f j d : ℝ) : EReal))
  (hq : ∀ (p : Fin 128) (d : Fin 256), (m ((c : Thread nD τ).loc main_arg2) : S128x256.Idx → EReal) (ix2 p d) = ((q p d : ℝ) : EReal))
  (hal : (m ((c : Thread nD τ).loc main_arg3) : S1.Idx → EReal) (ix1 (0 : Fin 1)) = ((al : ℝ) : EReal))
  (hbe : (m ((c : Thread nD τ).loc main_arg4) : S1.Idx → EReal) (ix1 (0 : Fin 1)) = ((be : ℝ) : EReal))
  (hth : (m ((c : Thread nD τ).loc main_arg5) : S1.Idx → EReal) (ix1 (0 : Fin 1)) = ((th : ℝ) : EReal))

include hx hf hq hal hbe hth in
/-- WHAT POINT `t` WRITES BACK is block `t` of `outArr`. -/
theorem flushed_eq (t : Fin cfg0.N) :
    (dats m 0 c).flushed 6 t = ((cfg0.win 6).blk t).view.read (Elt Ideal) (outArr xr f q al be th) := by
  rw [Cert.KernelIdeal.Value.flushed6]
  unfold out0_6
  rw [View.canon_unit_zero hz]
  simp only [View.ld_unit_zero (S := S4096x256) hz, View.ld_unit_zero (S := S256x512) hz,
    View.ld_unit_zero (S := S512x128) hz, View.ld_unit_zero (S := S1x128) hz]
  have ht : t.val < 32 := t.isLt
  obtain ⟨-, -, -, -, -, -, -, -, -, -, -, -, e0, e1⟩ := idx_facts t
  funext y
  obtain ⟨r, p, rfl⟩ : ∃ (r : Fin 4096) (p : Fin 128), y = ix2 r p :=
    ⟨⟨(y 0).val, (y 0).isLt⟩, ⟨(y 1).val, (y 1).isLt⟩, funext fun a => by
      match a with
      | ⟨0, _⟩ => rfl
      | ⟨1, _⟩ => rfl⟩
  have hrow : ∀ r' : Fin 4096, t.val * 4096 + r'.val < 131072 := fun r' => by have := r'.isLt; omega
  show k0_pay1 (F := Ideal) (iblk m c 0 t) (iblk m c 1 t) (iblk m c 2 t) (iblk m c 3 t) (iblk m c 4 t) (iblk m c 5 t) (ix2 r p)
    = outArr xr f q al be th (((cfg0.win 6).blk t).view.emb (ix2 r p))
  refine (Cert.Tversky.KerBody.payload_value f q al be th (iblk m c 0 t) (iblk m c 1 t) (iblk m c 2 t) (iblk m c 3 t)
    (iblk m c 4 t) (iblk m c 5 t) (fun r' d => xr ⟨t.val * 4096 + r'.val, hrow r'⟩ d)
    (fun r' d => (xblk_apply m c t r' d (hrow r')).trans (hx _ _))
    (fun d j => (fhblk_apply m c t d j).trans (Cert.Tversky.KerHost.featHi m c f hf d j))
    (fun d j => (flblk_apply m c t d j).trans (Cert.Tversky.KerHost.featLo m c f hf d j))
    (fun j p' => (m1blk_apply m c t j p').trans (Cert.Tversky.KerHost.coefT1 m c f q al th hf hq hal hth j p'))
    (fun j p' => (m2blk_apply m c t j p').trans (Cert.Tversky.KerHost.coefT2 m c f q be hf hq hbe j p'))
    (fun p' => (cbblk_apply m c t p').trans (Cert.Tversky.KerHost.bias m c f q be hf hq hbe p'))
    r p).trans ?_
  have e : ((cfg0.win 6).blk t).view.emb (ix2 r p) = ix2 (⟨t.val * 4096 + r.val, hrow r⟩ : Fin 131072) p :=
    funext fun a => Fin.ext (by
      match a with
      | ⟨0, _⟩ => show win0_6.index t (0 : Fin 2) * 4096 + 1 * r.val = t.val * 4096 + r.val; rw [e0]; omega
      | ⟨1, _⟩ => show win0_6.index t (1 : Fin 2) * 128 + 1 * p.val = p.val; rw [e1]; omega)
  rw [e, outArr_apply, Cert.Tversky.kerRow_eq_refRow]

/-- An index of the output is in point `t`'s block iff each coordinate is in the block's range on its axis. -/
theorem mem_blk (t : Fin cfg0.N) (i : S131072x128.Idx) :
    i ∈ ((cfg0.win 6).blk t).view.set ↔ ∀ a : Fin 2, win0_6.index t a * S4096x128.size a ≤ (i a).val
      ∧ (i a).val < win0_6.index t a * S4096x128.size a + S4096x128.size a := by
  show i ∈ ((View.whole main_v35).slice (win0_6.rect t)).set ↔ _
  rw [View.set_slice_whole, Rect.mem_set_unit]
  exact Iff.rfl

/-- Every entry of the output lies in some point's block: row `b` in point `b / 4096`'s. -/
theorem cover (i : S131072x128.Idx) :
    ∃ t : Fin cfg0.N, (cfg0.win 6).flush t = true ∧ i ∈ ((cfg0.win 6).blk t).view.set := by
  have hi0 : (i 0).val < 131072 := (i 0).isLt
  have hi1 : (i 1).val < 128 := (i 1).isLt
  refine ⟨⟨(i 0).val / 4096, by show (i 0).val / 4096 < 32; omega⟩, flush0_6 _, ?_⟩
  rw [mem_blk]
  obtain ⟨-, -, -, -, -, -, -, -, -, -, -, -, e0, e1⟩ := idx_facts ⟨(i 0).val / 4096, by show (i 0).val / 4096 < 32; omega⟩
  intro a
  match a with
  | ⟨0, _⟩ =>
    show win0_6.index _ (0 : Fin 2) * 4096 ≤ (i 0).val ∧ (i 0).val < win0_6.index _ (0 : Fin 2) * 4096 + 4096
    rw [e0]; show (i 0).val / 4096 * 4096 ≤ (i 0).val ∧ (i 0).val < (i 0).val / 4096 * 4096 + 4096; omega
  | ⟨1, _⟩ =>
    show win0_6.index _ (1 : Fin 2) * 128 ≤ (i 1).val ∧ (i 1).val < win0_6.index _ (1 : Fin 2) * 128 + 128
    rw [e1]; omega

include hx hf hq hal hbe hth in
/-- THE OUTPUT ARRAY after the run is `outArr`. -/
theorem final : (dats m 0 c).arrAt 6 cfg0.N = outArr xr f q al be th :=
  (dats m 0 c).arrAt_eq_of_cover 6 (outArr xr f q al be th)
    (fun t _ => flushed_eq m c xr f q al be th hx hf hq hal hbe hth t) cover

end Point

end Cert.Tversky.KerArray

end
-- ==== Proof.lean ====
/-
  The kernel computes the reference's Tversky projection.

  On finite inputs every entry of the six arguments is a real number (`reals_of_pre`), so both programs are read over
  the reals.  The reference's result at row `b` and prototype `p` is `refRow` of row `b` (`ref_value`).  The kernel's 32
  grid points each write a block of 4096 rows whose entries are `kerRow` of their rows; `kerRow` and `refRow` are one
  number because the product distributes over finite sums and the low part of the feature bank vanishes; the blocks
  tile the output, so the kernel's output array is the reference's (`KerArray.final`).  The three frames are the
  generated ones, the reference's being its run with the result dropped; the idealization rewrote nothing.
-/
import proofs.«411926_j36129264894679_3_alg».proof.Defs
import proofs.«411926_j36129264894679_3_alg».proof.Proof.Gen.Kernel
import proofs.«411926_j36129264894679_3_alg».proof.Proof.Gen.Kernel.Skeleton
import proofs.«411926_j36129264894679_3_alg».proof.Proof.Gen.Kernel.Launch
import proofs.«411926_j36129264894679_3_alg».proof.Proof.Gen.Kernel.Points
import proofs.«411926_j36129264894679_3_alg».proof.Proof.Gen.Kernel.Frame
import proofs.«411926_j36129264894679_3_alg».proof.Proof.Gen.KernelIdeal
import proofs.«411926_j36129264894679_3_alg».proof.Proof.Gen.KernelIdeal.Skeleton
import proofs.«411926_j36129264894679_3_alg».proof.Proof.Gen.KernelIdeal.Launch
import proofs.«411926_j36129264894679_3_alg».proof.Proof.Gen.KernelIdeal.Points
import proofs.«411926_j36129264894679_3_alg».proof.Proof.Gen.KernelIdeal.Frame
import proofs.«411926_j36129264894679_3_alg».proof.Proof.Gen.ReferenceIdeal
import proofs.«411926_j36129264894679_3_alg».proof.Proof.Gen.Pre_finite_inputs
import proofs.«411926_j36129264894679_3_alg».proof.Proof.Gen.KernelIdeal.Value
import proofs.«411926_j36129264894679_3_alg».proof.Proof.Gen.ReferenceIdeal.Run
import proofs.«411926_j36129264894679_3_alg».proof.Proof.Gen.ReferenceIdeal.Read
import proofs.«411926_j36129264894679_3_alg».proof.Proof.Spec
import proofs.«411926_j36129264894679_3_alg».proof.Proof.Finite
import proofs.«411926_j36129264894679_3_alg».proof.Proof.RefValue
import proofs.«411926_j36129264894679_3_alg».proof.Proof.KerArray
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the array whose entry at row `b`, prototype `p` is `refRow` of the real row `b`. -/
theorem algebraic : Cert.algebraic_KernelIdeal_ReferenceIdeal := by
  intro m ρ m' ρ' hpre hagree
  have hR := fun c => Cert.Tversky.reals_of_pre _ _ _ _ _ _ (hpre c)
  choose x0r hx0 using fun c => (hR c).1
  choose x1r hx1 using fun c => (hR c).2.1
  choose x2r hx2 using fun c => (hR c).2.2.1
  choose x3r hx3 using fun c => (hR c).2.2.2.1
  choose x4r hx4 using fun c => (hR c).2.2.2.2.1
  choose x5r hx5 using fun c => (hR c).2.2.2.2.2
  refine ⟨fun c => Cert.Tversky.KerArray.outArr (fun b d => x0r c (ix2 b d)) (fun j d => x1r c (ix2 j d))
      (fun p d => x2r c (ix2 p d)) (x3r c (ix1 (0 : Fin 1))) (x4r c (ix1 (0 : Fin 1))) (x5r c (ix1 (0 : Fin 1))),
    (θ_run Cert.KernelIdeal.defs _ _).mono (fun r h c => ⟨(h c).1.trans
        (Cert.Tversky.KerArray.final m c (fun b d => x0r c (ix2 b d)) (fun j d => x1r c (ix2 j d))
          (fun p d => x2r c (ix2 p d)) (x3r c (ix1 (0 : Fin 1))) (x4r c (ix1 (0 : Fin 1))) (x5r c (ix1 (0 : Fin 1)))
          (fun b d => hx0 c (ix2 b d)) (fun j d => hx1 c (ix2 j d)) (fun p d => hx2 c (ix2 p d))
          (hx3 c (ix1 (0 : Fin 1))) (hx4 c (ix1 (0 : Fin 1))) (hx5 c (ix1 (0 : Fin 1)))), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  obtain ⟨a0, a1, a2, a3, a4, a5⟩ := hagree c
  funext i
  obtain ⟨b, p, rfl⟩ : ∃ (b : Fin 131072) (p : Fin 128), i = ix2 b p := ⟨i 0, i 1, eq_ix2 i⟩
  exact Cert.Tversky.Ref.ref_value _ _ _ _ _ _ (fun b d => x0r c (ix2 b d)) (fun j d => x1r c (ix2 j d))
    (fun p d => x2r c (ix2 p d)) (x3r c (ix1 (0 : Fin 1))) (x4r c (ix1 (0 : Fin 1))) (x5r c (ix1 (0 : Fin 1)))
    (fun b d => (congrFun a0 _).trans (hx0 c (ix2 b d))) (fun j d => (congrFun a1 _).trans (hx1 c (ix2 j d)))
    (fun p d => (congrFun a2 _).trans (hx2 c (ix2 p d))) ((congrFun a3 _).trans (hx3 c (ix1 (0 : Fin 1))))
    ((congrFun a4 _).trans (hx4 c (ix1 (0 : Fin 1)))) ((congrFun a5 _).trans (hx5 c (ix1 (0 : Fin 1)))) b p

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
